-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S512x1024 : Shape := ⟨2, ![512, 1024]⟩
abbrev S1x512 : Shape := ⟨2, ![1, 512]⟩
abbrev S512x512 : Shape := ⟨2, ![512, 512]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .f32 = 32 ∨ (Rect.block (s := S4096x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S1x4096, .f32⟩
  | .hbm, ⟨6, _⟩ => ⟨S4096x4096, .f32⟩
  | .hbm, ⟨7, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.RunSum.lean ====
/-
  A sum over one row of 4096 positions, cut into four consecutive runs of 1024.

  The kernel walks the contraction axis of `x · Wᵀ` in four steps of 1024 positions, adding each step's partial
  dot product to an accumulator that starts at zero, and adds the bias after the last step; the reference contracts
  all 4096 positions at once.  Addition in a commutative monoid does not care about the grouping, so the two agree:
  `sum_four_runs` regroups the long sum, and `runs_eq_whole` is the statement in the shape both programs meet it
  (`(0 + (s₀ + s₁ + s₂ + s₃)) + β` against `∑ + β`); `affine` is the function `x·Wᵀ + b` itself.  No finiteness is
  used: only associativity and commutativity of `+`, which hold on all extended reals.
-/
import Idealize.ShloMosaic.Lib.ValueIdx
import Mathlib.Logic.Equiv.Fin.Basic

noncomputable section

open scoped BigOperators

namespace Cert.RunSum

/-- Position `1024·q + r` of a row of 4096: place `r` of run `q`. -/
abbrev pos (q : Fin 4) (r : Fin 1024) : Fin 4096 := ⟨1024 * q.val + r.val, by have := q.isLt; have := r.isLt; omega⟩

/-- (run, place) pairs are the positions of the row. -/
def runEquiv : Fin 4 × Fin 1024 ≃ Fin 4096 := finProdFinEquiv

theorem runEquiv_apply (q : Fin 4) (r : Fin 1024) : runEquiv (q, r) = pos q r :=
  Fin.ext (show r.val + 1024 * q.val = 1024 * q.val + r.val from Nat.add_comm _ _)

/-- A sum over the row is the sum over the runs of the sums over their places. -/
theorem sum_four_runs {M : Type*} [AddCommMonoid M] (f : Fin 4096 → M) :
    ∑ k, f k = ∑ q : Fin 4, ∑ r : Fin 1024, f (pos q r) := by
  rw [← Equiv.sum_comp runEquiv f, Fintype.sum_prod_type]
  exact Finset.sum_congr rfl fun q _ => Finset.sum_congr rfl fun r _ => congrArg f (runEquiv_apply q r)

/-- Four addends `g 0 … g 3`, each the sum over one run, added to a zero start, then the offset `β`: the whole sum plus `β`. -/
theorem runs_eq_whole {M : Type*} [AddCommMonoid M] (f : Fin 4096 → M) (g : ℕ → M)
    (hg : ∀ (s : ℕ) (hs : s < 4), g s = ∑ r : Fin 1024, f (pos ⟨s, hs⟩ r)) (β : M) :
    (0 + ∑ s ∈ Finset.range 4, g s) + β = (∑ k, f k) + β := by
  rw [zero_add, Finset.sum_range, sum_four_runs]
  exact congrArg (· + β) (Finset.sum_congr rfl fun s _ => hg s.val s.isLt)

/-! ## The function both programs compute -/

open Idealize.ShloMosaic Idealize.ShloMosaic.ValueIdx

/-- `x·Wᵀ + b` over the extended reals: entry (r, s) is the dot product of row `r` of `x` with row `s` of `W` over all
    4096 positions, plus `b[s]`. -/
def affine (X W : (⟨2, ![4096, 4096]⟩ : Shape).Idx → EReal) (b : (⟨1, ![4096]⟩ : Shape).Idx → EReal) :
    (⟨2, ![4096, 4096]⟩ : Shape).Idx → EReal :=
  fun j => (∑ k : Fin 4096, X (ix2 (j 0) k) * W (ix2 (j 1) k)) + b (ix1 (j 1))

end Cert.RunSum

end
-- ==== Proof.Stored.lean ====
/-
  What the kernel body leaves in its accumulator and in the output block, case by case, as values.

  The body runs in one of three ways, told apart by the position along the contraction axis: the FIRST step of an
  output block (the accumulator is reset to zero before the step), a MIDDLE step, and the LAST step (after the step
  the accumulator plus the bias row is stored to the output block).  Each store covers its whole buffer, so what a
  buffer ends holding is the last store's value; a load that follows a store of the same run reads that store's value.
  The lemmas hold for any float interpretation.
-/
import proofs.«168702_j21251498180726_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Stored

open Cert.KernelIdeal Cert.KernelIdeal.Gen

variable {F : FTy → Type} [FloatOps F]

theorem hz : (![0, 0] : Fin 2 → Nat) = fun _ => 0 := funext fun a => by fin_cases a <;> rfl

/-- At a block's first step the accumulator is overwritten with zero, read back, and the step is applied to that:
    it ends at `step a w 0`, whatever it held before. -/
theorem acc_first (c : Dev nD) (i : grid0.Coords) (a3 : Memref sig .tc .vmem S512x1024 .f32) (h3 : a3.IsWhole)
    (a4 : Memref sig .tc .vmem S512x1024 .f32) (h4 : a4.IsWhole) (a5 : Memref sig .tc .vmem S1x512 .f32) (h5 : a5.IsWhole)
    (a6 : Memref sig .tc .vmem S512x512 .f32) (h6 : a6.IsWhole) (a7 : Memref sig .tc .vmem S512x512 .f32) (h7 : a7.IsWhole)
    (hc0 : cond0_0 i) (hc1 : ¬cond0_1 i) (x0 x1 : Vec F S512x1024 .f32) (x2 : Vec F S1x512 .f32) :
    sout0_A_0 c i a3 h3 a4 h4 a5 h5 a6 h6 a7 h7 hc0 hc1 x0 x1 x2 = k0_pay2 x0 x1 k0_pay1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S512x512) hz, View.readCov_unit_zero (S := S512x512) _ hz]
  simp only [View.readAt_eq_ld, h3.read_unread, h4.read_unread, View.ld_unit_zero (S := S512x1024) hz]

/-- At a middle step the accumulator `s` the step before left becomes `step a w s`. -/
theorem acc_middle (c : Dev nD) (i : grid0.Coords) (a3 : Memref sig .tc .vmem S512x1024 .f32) (h3 : a3.IsWhole)
    (a4 : Memref sig .tc .vmem S512x1024 .f32) (h4 : a4.IsWhole) (a5 : Memref sig .tc .vmem S1x512 .f32) (h5 : a5.IsWhole)
    (a6 : Memref sig .tc .vmem S512x512 .f32) (h6 : a6.IsWhole) (a7 : Memref sig .tc .vmem S512x512 .f32) (h7 : a7.IsWhole)
    (hc0 : ¬cond0_0 i) (hc1 : ¬cond0_1 i) (x0 x1 : Vec F S512x1024 .f32) (x2 : Vec F S1x512 .f32) (xs0 : Vec F S512x512 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero (S := S512x512) hz]
  simp only [View.readAt_eq_ld, h3.read_unread, h4.read_unread, h7.read_unread, View.ld_unit_zero (S := S512x1024) hz,
    View.ld_unit_zero (S := S512x512) hz]

/-- At a block's last step the accumulator likewise becomes `step a w s`, -/
theorem acc_last (c : Dev nD) (i : grid0.Coords) (a3 : Memref sig .tc .vmem S512x1024 .f32) (h3 : a3.IsWhole)
    (a4 : Memref sig .tc .vmem S512x1024 .f32) (h4 : a4.IsWhole) (a5 : Memref sig .tc .vmem S1x512 .f32) (h5 : a5.IsWhole)
    (a6 : Memref sig .tc .vmem S512x512 .f32) (h6 : a6.IsWhole) (a7 : Memref sig .tc .vmem S512x512 .f32) (h7 : a7.IsWhole)
    (hc0 : ¬cond0_0 i) (hc1 : cond0_1 i) (x0 x1 : Vec F S512x1024 .f32) (x2 : Vec F S1x512 .f32) (xs0 : Vec F S512x512 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero (S := S512x512) hz]
  simp only [View.readAt_eq_ld, h3.read_unread, h4.read_unread, h7.read_unread, View.ld_unit_zero (S := S512x1024) hz,
    View.ld_unit_zero (S := S512x512) hz]

/-- and the output block is that new accumulator, read back, plus the bias row. -/
theorem out_last (c : Dev nD) (i : grid0.Coords) (a3 : Memref sig .tc .vmem S512x1024 .f32) (h3 : a3.IsWhole)
    (a4 : Memref sig .tc .vmem S512x1024 .f32) (h4 : a4.IsWhole) (a5 : Memref sig .tc .vmem S1x512 .f32) (h5 : a5.IsWhole)
    (a6 : Memref sig .tc .vmem S512x512 .f32) (h6 : a6.IsWhole) (a7 : Memref sig .tc .vmem S512x512 .f32) (h7 : a7.IsWhole)
    (hc0 : ¬cond0_0 i) (hc1 : cond0_1 i) (x0 x1 : Vec F S512x1024 .f32) (x2 : Vec F S1x512 .f32) (xs0 : Vec F S512x512 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero (S := S512x512) hz, View.readCov_unit_zero (S := S512x512) _ hz]
  simp only [View.readAt_eq_ld, h3.read_unread, h4.read_unread, h5.read_unread, h7.read_unread,
    View.ld_unit_zero (S := S512x1024) hz, View.ld_unit_zero (S := S512x512) hz, View.ld_unit_zero (S := S1x512) hz]

end Cert.KernelIdeal.Stored

end
-- ==== Proof.Payload.lean ====
/-
  The three values the kernel body stores, read at one entry, over the extended reals.

  The body keeps a 512×512 accumulator.  Its reset value is the zero block.  One step takes a 512×1024 block `a` of
  `x` and a 512×1024 block `w` of `W` and replaces the accumulator `s` by `s + a·wᵀ`: entry (p, q) gains
  `∑ₖ a[p,k]·w[q,k]` over the block's 1024 columns (both operands are contracted along their second axis; the change
  of format to bf16 before the product is the identity on extended reals, and the product unit's own accumulator is the
  zero block).  The closing step adds the bias row `β` (a 1×512 block) to every row: entry (p, q) gains `β[0,q]`.
-/
import proofs.«168702_j21251498180726_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The product's operand indices: output entry (p, q) and column k meet `a` at (p, k) and `w` at (q, k) -/

theorem lhs_axis0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_axis1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhs_axis0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_axis1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- `a·wᵀ` into the zero block, at entry (p, q): the sum over the 1024 columns of `a[p,k]·w[q,k]`. -/
theorem product_apply (a w : FVec Ideal S512x1024 .bf16) (p q : Fin 512) :
    matmul dot_S512x1024_S512x1024_S512x512_1_1_0_0_n_n none a w (constant (F := Ideal) S512x512 .f32 0x00000000#32) (ix2 p q)
      = ∑ k : Fin 1024, a (ix2 p k) * w (ix2 q k) := by
  simp only [matmul]
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 p q) ((contrEquiv1 dot_S512x1024_S512x1024_S512x512_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S512x1024_S512x1024_S512x512_1_1_0_0_n_n.rhsIdx (ix2 p q) ((contrEquiv1 dot_S512x1024_S512x1024_S512x512_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-! ## The stored values at an entry -/

/-- The reset value is zero everywhere. -/
theorem reset_apply (j : S512x512.Idx) : k0_pay1 (F := Ideal) j = 0 := by
  unfold k0_pay1
  rw [shapeCast_self]
  exact Ideal.ofBits_zero_f32

/-- One step: the accumulator's entry plus the partial dot product of row `p` of `a` with row `q` of `w`. -/
theorem step_apply (a w : Vec Ideal S512x1024 .f32) (s : Vec Ideal S512x512 .f32) (p q : Fin 512) :
    k0_pay2 a w s (ix2 p q) = s (ix2 p q) + ∑ k : Fin 1024, a (ix2 p k) * w (ix2 q k) := by
  unfold k0_pay2
  rw [shapeCast_self]
  show s (ix2 p q) + matmul dot_S512x1024_S512x1024_S512x512_1_1_0_0_n_n none (truncf .bf16 a bitsLt_bf16_f32) (truncf .bf16 w bitsLt_bf16_f32)
    (constant (F := Ideal) S512x512 .f32 0x00000000#32) (ix2 p q) = _
  rw [product_apply]
  rfl

/-- The closing step: the accumulator's entry plus the bias of its column. -/
theorem close_apply (s : Vec Ideal S512x512 .f32) (β : Vec Ideal S1x512 .f32) (p q : Fin 512) :
    k0_pay3 s β (ix2 p q) = s (ix2 p q) + β (ix2 (0 : Fin 1) q) := by
  unfold k0_pay3
  rw [shapeCast_self]
  show s (ix2 p q) + broadcastTo S512x512 β broadcasts_S1x512_S512x512 (ix2 p q) = _
  rw [broadcastTo_apply β broadcasts_S1x512_S512x512 (ix2 p q) (ix2 (0 : Fin 1) q) (fun a => by
    match a with
    | ⟨0, _⟩ => rfl
    | ⟨1, _⟩ => rfl)]

end Cert.KernelIdeal.Payload

end
-- ==== Proof.Blocks.lean ====
/-
  What each input window's block holds at a grid point, in terms of the argument arrays.

  The grid is 8 × 8 × 4 and point `t` = 32·i + 4·j + κ is at row block `i` of `x`, row block `j` of `W` and run `κ` of
  the contraction axis.  Window 0 reads the 512×1024 block (i, κ) of `x`, window 1 the block (j, κ) of `W`, window 2
  the 1×512 block (0, j) of the bias laid out as one row, and a block's entry (r, c) is the array's entry
  (block row · rows + r, block column · columns + c).  Reads only: the lemmas hold for any float interpretation.
-/
import proofs.«168702_j21251498180726_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- Which block each window is on at point `t` = 32·i + 4·j + κ: `x`'s (i, κ), `W`'s (j, κ), the bias row's (0, j), the
    output's (i, j) — decided over the 256 points. -/
theorem block_index : ∀ t : Fin cfg0.N,
    (win0_0.index t (0 : Fin 2) = t.val / 32 ∧ win0_0.index t (1 : Fin 2) = t.val % 4)
    ∧ (win0_1.index t (0 : Fin 2) = t.val / 4 % 8 ∧ win0_1.index t (1 : Fin 2) = t.val % 4)
    ∧ (win0_2.index t (0 : Fin 2) = 0 ∧ win0_2.index t (1 : Fin 2) = t.val / 4 % 8)
    ∧ (win0_3.index t (0 : Fin 2) = t.val / 32 ∧ win0_3.index t (1 : Fin 2) = t.val / 4 % 8) :=
  (by decide +kernel : ∀ t : Fin grid0.N,
    (win0_0.index t (0 : Fin 2) = t.val / 32 ∧ win0_0.index t (1 : Fin 2) = t.val % 4)
    ∧ (win0_1.index t (0 : Fin 2) = t.val / 4 % 8 ∧ win0_1.index t (1 : Fin 2) = t.val % 4)
    ∧ (win0_2.index t (0 : Fin 2) = 0 ∧ win0_2.index t (1 : Fin 2) = t.val / 4 % 8)
    ∧ (win0_3.index t (0 : Fin 2) = t.val / 32 ∧ win0_3.index t (1 : Fin 2) = t.val / 4 % 8))

/-- Row `512·(t/32) + p` of a 4096-row array: row `p` of the row block point `t` is on. -/
abbrev xrow (t : Fin cfg0.N) (p : Fin 512) : Fin 4096 :=
  ⟨512 * (t.val / 32) + p.val, by have := lt_of_lt_of_eq t.isLt (show cfg0.N = 256 from N_0); have := p.isLt; omega⟩
/-- Row `512·(t/4 % 8) + q` of `W` (equally: column of the output, place of the bias). -/
abbrev wrow (t : Fin cfg0.N) (q : Fin 512) : Fin 4096 :=
  ⟨512 * (t.val / 4 % 8) + q.val, by have := q.isLt; omega⟩
/-- Column `1024·(t % 4) + k`: place `k` of the run of the contraction axis point `t` is on. -/
abbrev kcol (t : Fin cfg0.N) (k : Fin 1024) : Fin 4096 :=
  ⟨1024 * (t.val % 4) + k.val, by have := k.isLt; omega⟩

/-- `x`'s block at point `t`, entry (p, k), is `x[512·(t/32) + p, 1024·(t%4) + k]`. -/
theorem x_block (c : Dev nD) (t : Fin cfg0.N) (p : Fin 512) (k : Fin 1024) :
    (iblk m c 0 t : Vec F S512x1024 .f32) (ix2 p k) = m ((c : Thread nD τ).loc main_arg0) (ix2 (xrow t p) (kcol t k)) := by
  have hi := (block_index t).1
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * p.val = 512 * (t.val / 32) + p.val; rw [hi.1]; omega
  | ⟨1, _⟩ => show win0_0.index t 1 * 1024 + 1 * k.val = 1024 * (t.val % 4) + k.val; rw [hi.2]; omega

/-- `W`'s block at point `t`, entry (q, k), is `W[512·(t/4 % 8) + q, 1024·(t%4) + k]`. -/
theorem w_block (c : Dev nD) (t : Fin cfg0.N) (q : Fin 512) (k : Fin 1024) :
    (iblk m c 1 t : Vec F S512x1024 .f32) (ix2 q k) = m ((c : Thread nD τ).loc main_arg1) (ix2 (wrow t q) (kcol t k)) := by
  have hi := (block_index t).2.1
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * q.val = 512 * (t.val / 4 % 8) + q.val; rw [hi.1]; omega
  | ⟨1, _⟩ => show win0_1.index t 1 * 1024 + 1 * k.val = 1024 * (t.val % 4) + k.val; rw [hi.2]; omega

/-- The bias as the region finds it: the one-row reshape of the argument, so its entry (0, s) is `b[s]`. -/
theorem bias_row (c : Dev nD) (s : Fin 4096) :
    (V m c main_v0 : S1x4096.Idx → Elt F .f32) (ix2 (0 : Fin 1) s) = m ((c : Thread nD τ).loc main_arg2) (ix1 s) := by
  have e : (V m c main_v0 : S1x4096.Idx → Elt F .f32)
      = shapeCast S1x4096 (m ((c : Thread nD τ).loc main_arg2)) shapeCasts_S4096_S1x4096 := by
    dsimp only [Gen.V, Gen.hostOps0]; after_results; rfl
  rw [e, shapeCast_apply _ shapeCasts_S4096_S1x4096 (ix2 (0 : Fin 1) s) (ix1 s) (by
    rw [Shape.rowMajor_val_one, Shape.rowMajor_val_two]; show s.val = 0 * 4096 + s.val; omega)]

/-- The bias row's block at point `t`, entry (0, q), is `b[512·(t/4 % 8) + q]`. -/
theorem b_block (c : Dev nD) (t : Fin cfg0.N) (q : Fin 512) :
    (iblk m c 2 t : Vec F S1x512 .f32) (ix2 (0 : Fin 1) q) = m ((c : Thread nD τ).loc main_arg2) (ix1 (wrow t q)) := by
  have hi := (block_index t).2.2.1
  rw [← bias_row m c (wrow t q)]
  unfold iblk
  rw [View.read_apply]
  show V m c main_v0 _ = V m c main_v0 _
  congr 1
  funext a
  apply Fin.ext
  match a with
  | ⟨0, _⟩ => show win0_2.index t 0 * 1 + 1 * 0 = 0; rw [hi.1]
  | ⟨1, _⟩ => show win0_2.index t 1 * 512 + 1 * q.val = 512 * (t.val / 4 % 8) + q.val; rw [hi.2]; omega

end Cert.KernelIdeal.Blocks

end
-- ==== Proof.Accum.lean ====
/-
  The accumulator across the four steps of an output block, and the output block itself, over the extended reals.

  The 256 grid points come in runs of four, `4g, 4g+1, 4g+2, 4g+3`: one output block (i, j), its four steps along the
  contraction axis.  The accumulator is reset at the first step and carried through the others, so after the last step
  its entry (p, q) is `0 + (s₀ + s₁ + s₂ + s₃)`, where `sκ` is the dot product of row `512i + p` of `x` with row
  `512j + q` of `W` over positions `1024κ … 1024κ + 1023`.  The output block stored at that step adds `b[512j + q]`.
  Regrouping the four runs into one sum over all 4096 positions (which needs only that `+` is associative and
  commutative) makes this entry (512i + p, 512j + q) of `x·Wᵀ + b`.
-/
import proofs.«168702_j21251498180726_1_alg».proof.Proof.Gen.KernelIdeal.Value
import proofs.«168702_j21251498180726_1_alg».proof.Proof.RunSum
import proofs.«168702_j21251498180726_1_alg».proof.Proof.Stored
import proofs.«168702_j21251498180726_1_alg».proof.Proof.Payload
import proofs.«168702_j21251498180726_1_alg».proof.Proof.Blocks

noncomputable section

open scoped BigOperators
open Idealize.ShloMosaic Idealize.ShloMosaic.TcCoe Idealize.SL.Sem

namespace Cert.KernelIdeal.Accum

open Cert.KernelIdeal Cert.KernelIdeal.Gen Cert.KernelIdeal.Blocks Idealize.ShloMosaic.ValueIdx

variable (m : (ℓ : Loc nD τ sig) → Buf (Elt Ideal) ℓ)

/-- The three argument arrays, as arrays of extended reals. -/
abbrev xA (c : Dev nD) : Vec Ideal S4096x4096 .f32 := m ((c : Thread nD τ).loc main_arg0)
abbrev wA (c : Dev nD) : Vec Ideal S4096x4096 .f32 := m ((c : Thread nD τ).loc main_arg1)
abbrev bA (c : Dev nD) : Vec Ideal S4096 .f32 := m ((c : Thread nD τ).loc main_arg2)

/-- What point `n` adds to entry (p, q) of its output block: the dot product of row `p` of its row block of `x` with row
    `q` of its row block of `W`, over the 1024 positions of its run of the contraction axis (zero past the grid). -/
def addend (c : Dev nD) (n : ℕ) (i : S512x512.Idx) : EReal :=
  if h : n < cfg0.N then
    ∑ r : Fin 1024, xA m c (ix2 (xrow ⟨n, h⟩ (i 0)) (kcol ⟨n, h⟩ r)) * wA m c (ix2 (wrow ⟨n, h⟩ (i 1)) (kcol ⟨n, h⟩ r))
  else 0

/-- One step at point `t` on an accumulator `s`: entry `i` gains point `t`'s addend. -/
theorem step_at (c : Dev nD) (t : Fin cfg0.N) (s : Vec Ideal S512x512 .f32) (i : S512x512.Idx) :
    k0_pay2 (iblk m c 0 t) (iblk m c 1 t) s i = s i + addend m c t.val i := by
  obtain ⟨p, q, rfl⟩ : ∃ (p q : Fin 512), i = ix2 p q := ⟨i 0, i 1, eq_ix2 i⟩
  refine (Payload.step_apply (iblk m c 0 t) (iblk m c 1 t) s p q).trans ?_
  unfold addend
  rw [dif_pos t.isLt]
  exact congrArg (s (ix2 p q) + ·) (Finset.sum_congr rfl fun k _ => by
    rw [x_block m c t p k, w_block m c t q k])

/-- The first step of a block (`b` a multiple of 4): whatever the accumulator held, it ends at zero plus the addend. -/
theorem first_step (c : Dev nD) (b : ℕ) (hb : b < cfg0.N) (h0 : b % 4 = 0) (junk : Vec Ideal S512x512 .f32) (i : S512x512.Idx) :
    Value.scAt0_0 m c b hb junk i = 0 + addend m c b i := by
  have h1 : ¬b % 4 = 3 := by omega
  unfold Value.scAt0_0
  rw [dif_pos h0, dif_neg h1]
  refine (congrFun (Stored.acc_first (F := Ideal) c (grid0.coords (⟨b, hb⟩ : Fin cfg0.N)) (ms0_0 (⟨b, hb⟩ : Fin cfg0.N)) (hs0_0 (⟨b, hb⟩ : Fin cfg0.N)) (ms0_1 (⟨b, hb⟩ : Fin cfg0.N)) (hs0_1 (⟨b, hb⟩ : Fin cfg0.N)) (ms0_2 (⟨b, hb⟩ : Fin cfg0.N)) (hs0_2 (⟨b, hb⟩ : Fin cfg0.N)) (ms0_3 (⟨b, hb⟩ : Fin cfg0.N)) (hs0_3 (⟨b, hb⟩ : Fin cfg0.N)) scM0_0 (Memref.isWhole_whole _) ((hcond0_0 (⟨b, hb⟩ : Fin cfg0.N)).mpr h0) (fun h => h1 ((hcond0_1 (⟨b, hb⟩ : Fin cfg0.N)).mp h)) (iblk m c 0 (⟨b, hb⟩ : Fin cfg0.N)) (iblk m c 1 (⟨b, hb⟩ : Fin cfg0.N)) (iblk m c 2 (⟨b, hb⟩ : Fin cfg0.N))) i).trans ?_
  refine (step_at m c ⟨b, hb⟩ (k0_pay1 (F := Ideal)) i).trans ?_
  rw [Payload.reset_apply]

/-- Every later step (`n` not a multiple of 4): the accumulator's entry gains the addend. -/
theorem later_step (c : Dev nD) (n : ℕ) (hn : n < cfg0.N) (h0 : ¬n % 4 = 0) (acc : Vec Ideal S512x512 .f32) (i : S512x512.Idx) :
    Value.scAt0_0 m c n hn acc i = acc i + addend m c n i := by
  unfold Value.scAt0_0
  rw [dif_neg h0]
  by_cases h1 : n % 4 = 3
  · rw [dif_pos h1]
    exact (congrFun (Stored.acc_last (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) (fun h => h0 ((hcond0_0 (⟨n, hn⟩ : Fin cfg0.N)).mp h)) ((hcond0_1 (⟨n, hn⟩ : Fin cfg0.N)).mpr h1) (iblk m c 0 (⟨n, hn⟩ : Fin cfg0.N)) (iblk m c 1 (⟨n, hn⟩ : Fin cfg0.N)) (iblk m c 2 (⟨n, hn⟩ : Fin cfg0.N)) acc) i).trans (step_at m c ⟨n, hn⟩ acc i)
  · rw [dif_neg h1]
    exact (congrFun (Stored.acc_middle (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) (fun h => h0 ((hcond0_0 (⟨n, hn⟩ : Fin cfg0.N)).mp h)) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) acc) i).trans (step_at m c ⟨n, hn⟩ acc i)

/-- THE ACCUMULATOR after point `t`: zero plus the addends of the points of `t`'s block so far, `4·(t/4) … t`. -/
theorem acc_after (c : Dev nD) (t : Fin cfg0.N) (i : S512x512.Idx) :
    (outsAt0 m c t.val t.isLt).2 i = 0 + ∑ s ∈ Finset.range (t.val % 4 + 1), addend m c (4 * (t.val / 4) + s) i := by
  rw [Value.soutsAt0_0_eq m c t]
  exact Pipeline.accAt_add_apply (ι := S512x512.Idx) (β := EReal) _ _ (fun _ => 0) (addend m c) (4 * (t.val / 4)) 3
    (fun h i => first_step m c _ h (by omega) _ i)
    (fun n h acc i hlt hle => later_step m c n h (by omega) acc i)
    (t.val % 4) (by omega) _ i

/-- The addend of the `s`-th point of `t`'s block, over the rows `t` is on and run `s` of the contraction axis. -/
theorem addend_run (c : Dev nD) (t : Fin cfg0.N) (p q : Fin 512) (s : ℕ) (hs : s < 4) :
    addend m c (4 * (t.val / 4) + s) (ix2 p q)
      = ∑ r : Fin 1024, xA m c (ix2 (xrow t p) (RunSum.pos ⟨s, hs⟩ r)) * wA m c (ix2 (wrow t q) (RunSum.pos ⟨s, hs⟩ r)) := by
  have hN : t.val < 256 := lt_of_lt_of_eq t.isLt (show cfg0.N = 256 from N_0)
  have hlt : 4 * (t.val / 4) + s < cfg0.N :=
    lt_of_lt_of_eq (show 4 * (t.val / 4) + s < 256 by omega) (show (256 : ℕ) = cfg0.N from N_0.symm)
  unfold addend
  rw [dif_pos hlt]
  refine Finset.sum_congr rfl fun r _ => ?_
  have ex : xrow ⟨4 * (t.val / 4) + s, hlt⟩ p = xrow t p :=
    Fin.ext (by show 512 * ((4 * (t.val / 4) + s) / 32) + p.val = 512 * (t.val / 32) + p.val; omega)
  have ew : wrow ⟨4 * (t.val / 4) + s, hlt⟩ q = wrow t q :=
    Fin.ext (by show 512 * ((4 * (t.val / 4) + s) / 4 % 8) + q.val = 512 * (t.val / 4 % 8) + q.val; omega)
  have ek : kcol ⟨4 * (t.val / 4) + s, hlt⟩ r = RunSum.pos ⟨s, hs⟩ r :=
    Fin.ext (by show 1024 * ((4 * (t.val / 4) + s) % 4) + r.val = 1024 * s + r.val; omega)
  show xA m c (ix2 (xrow ⟨4 * (t.val / 4) + s, hlt⟩ p) (kcol ⟨4 * (t.val / 4) + s, hlt⟩ r))
      * wA m c (ix2 (wrow ⟨4 * (t.val / 4) + s, hlt⟩ q) (kcol ⟨4 * (t.val / 4) + s, hlt⟩ r)) = _
  rw [ex, ew, ek]

/-- THE OUTPUT BLOCK at the last step of a block (`t ≡ 3` mod 4): entry (p, q) is entry (row of `x`, row of `W`) of
    `x·Wᵀ + b`: the four runs' partial dot products added to zero, then the bias. -/
theorem out_entry (c : Dev nD) (t : Fin cfg0.N) (h3 : t.val % 4 = 3) (p q : Fin 512) :
    (outsAt0 m c t.val t.isLt).1 (ix2 p q) = RunSum.affine (xA m c) (wA m c) (bA m c) (ix2 (xrow t p) (wrow t q)) := by
  have h0 : ¬t.val % 4 = 0 := by omega
  have e1 : (outsAt0 m c t.val t.isLt).1 = k0_pay3 (outsAt0 m c t.val t.isLt).2 (iblk m c 2 t) := by
    rw [outsAt0_C m c t h0 h3]
    dsimp only
    exact (Stored.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) _).trans
      (congrArg (fun s => k0_pay3 s (iblk m c 2 t))
        (Stored.acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) _).symm)
  rw [e1]
  refine (Payload.close_apply _ (iblk m c 2 t) p q).trans ?_
  rw [acc_after m c t (ix2 p q), b_block m c t q, h3]
  exact RunSum.runs_eq_whole (fun k => xA m c (ix2 (xrow t p) k) * wA m c (ix2 (wrow t q) k))
    (fun s => addend m c (4 * (t.val / 4) + s) (ix2 p q)) (fun s hs => addend_run m c t p q s hs) (bA m c (ix1 (wrow t q)))

end Cert.KernelIdeal.Accum

end
-- ==== Proof.Result.lean ====
/-
  From the output blocks to the whole result array.

  The output window is written back only at the last step of each block (`t ≡ 3` mod 4), where it is on block
  (t/32, t/4 % 8) of the 4096×4096 result; the 64 blocks tile the array.  Each written block is the matching block of
  `x·Wᵀ + b`, so the array ends holding `x·Wᵀ + b`.
-/
import proofs.«168702_j21251498180726_1_alg».proof.Proof.Accum

noncomputable section

open scoped BigOperators
open Idealize.ShloMosaic Idealize.ShloMosaic.TcCoe Idealize.SL.Sem

namespace Cert.KernelIdeal.Result

open Cert.KernelIdeal Cert.KernelIdeal.Gen Cert.KernelIdeal.Blocks Idealize.ShloMosaic.ValueIdx
open Idealize.ShloMosaic.Pipeline (Dat)

variable (m : (ℓ : Loc nD τ sig) → Buf (Elt Ideal) ℓ) (ρ : Dev nD → PrngReg)

/-- What the result array holds after the run: `x·Wᵀ + b` of the three argument arrays. -/
abbrev result (c : Dev nD) : Buf (Elt Ideal) ((c : Thread nD τ).loc main_v1) :=
  Cert.RunSum.affine (Accum.xA m c) (Accum.wA m c) (Accum.bA m c)

/-- What a writing point writes back is its block of `x·Wᵀ + b`: the output window is on block (t/32, t/4 % 8), whose
    entry (p, q) is the array's entry (512·(t/32) + p, 512·(t/4 % 8) + q). -/
theorem written_block (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  have hi := (block_index t).2.2.2
  rw [Value.flushed3]
  funext y
  obtain ⟨p, q, rfl⟩ : ∃ (p q : Fin 512), y = ix2 p q := ⟨y 0, y 1, eq_ix2 y⟩
  show (outsAt0 m c t.val t.isLt).1 (ix2 p q) = result m c (((cfg0.win 3).blk t).view.emb (ix2 p q))
  rw [Accum.out_entry m c t h3 p q]
  show Cert.RunSum.affine _ _ _ _ = Cert.RunSum.affine _ _ _ _
  congr 1
  funext a
  apply Fin.ext
  match a with
  | ⟨0, _⟩ => show 512 * (t.val / 32) + p.val = win0_3.index t (0 : Fin 2) * 512 + 1 * p.val; rw [hi.1]; omega
  | ⟨1, _⟩ => show 512 * (t.val / 4 % 8) + q.val = win0_3.index t (1 : Fin 2) * 512 + 1 * q.val; rw [hi.2]; omega

/-- An index of the array is in point `t`'s output block iff each coordinate is in the block's range on its axis. -/
theorem mem_block (t : Fin cfg0.N) (i : S4096x4096.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v1).slice (win0_3.rect t)).set ↔ _
  rw [View.set_slice_whole, Rect.mem_set_unit]
  exact Iff.rfl

/-- Every entry (r, s) of the array is written: by the last step of block (r / 512, s / 512). -/
theorem covered (i : S4096x4096.Idx) : ∃ t : Fin cfg0.N, (cfg0.win 3).flush t = true ∧ i ∈ ((cfg0.win 3).blk t).view.set := by
  have h0 : (i 0).val < 4096 := (i 0).isLt
  have h1 : (i 1).val < 4096 := (i 1).isLt
  obtain ⟨t, ht⟩ : ∃ t : Fin cfg0.N, t.val = 32 * ((i 0).val / 512) + 4 * ((i 1).val / 512) + 3 :=
    ⟨⟨32 * ((i 0).val / 512) + 4 * ((i 1).val / 512) + 3,
      lt_of_lt_of_eq (show 32 * ((i 0).val / 512) + 4 * ((i 1).val / 512) + 3 < 256 by omega) (show (256 : ℕ) = cfg0.N from N_0.symm)⟩, rfl⟩
  have hi := (block_index t).2.2.2
  refine ⟨t, (flush0_3 t).mpr (by omega), ?_⟩
  rw [mem_block]
  intro a
  match a with
  | ⟨0, _⟩ => show win0_3.index t (0 : Fin 2) * 512 ≤ (i 0).val ∧ (i 0).val < win0_3.index t (0 : Fin 2) * 512 + 512; rw [hi.1]; omega
  | ⟨1, _⟩ => show win0_3.index t (1 : Fin 2) * 512 ≤ (i 1).val ∧ (i 1).val < win0_3.index t (1 : Fin 2) * 512 + 512; rw [hi.2]; omega

/-- So the result array ends holding `x·Wᵀ + b`. -/
theorem final (c : Dev nD) : (dats m 0 c).arrAt 3 cfg0.N = result m c :=
  (dats m 0 c).arrAt_eq_of_cover 3 (result m c) (written_block m c) covered

/-- The run, read: every weakly fair execution terminates with the result array at `x·Wᵀ + b` and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Result

end
-- ==== Proof.RefAffine.lean ====
/-
  The reference computes `x·Wᵀ + b`.

  Its five host operations are: the transpose `Wᵀ`, the product `x · Wᵀ` contracting `x`'s second axis with `Wᵀ`'s first
  over all 4096 positions, the bias laid out as one row and repeated down the rows, and the sum.  Read at entry
  (r, s): `∑ₖ x[r,k]·Wᵀ[k,s] + b[s]`, and `Wᵀ[k,s] = W[s,k]`.
-/
import proofs.«168702_j21251498180726_1_alg».proof.Proof.Gen.ReferenceIdeal.Read
import proofs.«168702_j21251498180726_1_alg».proof.Proof.RunSum

noncomputable section

open scoped BigOperators
open Idealize.ShloMosaic Idealize.ShloMosaic.ValueIdx

namespace Cert.ReferenceIdeal.RefValue

open Cert.ReferenceIdeal Cert.ReferenceIdeal.Read

/-- The last stage of the reference, as a function of the three arguments, is `x·Wᵀ + b`. -/
theorem result_eq_affine (x0 x1 : (⟨S4096x4096, .f32⟩ : BufTy).Contents (Elt Ideal)) (x2 : (⟨S4096, .f32⟩ : BufTy).Contents (Elt Ideal)) :
    val_main_v4 (F := Ideal) x0 x1 x2 = Cert.RunSum.affine x0 x1 x2 := by
  funext i
  have el : ∀ k : Fin 4096, lidx_main_v1 i k = ix2 (i 0) k := fun k => funext fun a => Fin.ext (by
    match a with
    | ⟨0, _⟩ => rfl
    | ⟨1, _⟩ => rfl)
  have er : ∀ k : Fin 4096, idx_main_v0 (ridx_main_v1 i k) = ix2 (i 1) k := fun k => funext fun a => Fin.ext (by
    match a with
    | ⟨0, _⟩ => rfl
    | ⟨1, _⟩ => rfl)
  have eb : idx_main_v2 (idx_main_v3 i) = ix1 (i 1) := funext fun a => Fin.ext (by
    match a with
    | ⟨0, _⟩ => rfl)
  rw [val_main_v4_apply, val_main_v1_apply, val_main_v3_apply, val_main_v2_apply]
  simp only [val_main_v0_apply, el, er, eb]
  rfl

end Cert.ReferenceIdeal.RefValue

end
-- ==== Proof.lean ====
/-
  A linear layer `x·Wᵀ + b` (x, W : 4096×4096, b : 4096) computed block by block, against `jnp.dot(x, W.T) + b`.

  The kernel tiles the output into 8×8 blocks of 512×512 and walks the contraction axis in four steps of 1024.  An
  accumulator block is reset to zero at a block's first step, gains that step's partial product `a·wᵀ` at every step
  (the operands' change of format to bf16 before the product is the identity on extended reals), and after the last
  step is stored to the output block with the bias row added.  So entry (r, s) of the result is
  `(0 + (s₀ + s₁ + s₂ + s₃)) + b[s]` with `sκ = ∑ over positions 1024κ … 1024κ+1023 of x[r,k]·W[s,k]`.  The reference
  computes `∑ over all 4096 positions of x[r,k]·Wᵀ[k,s] + b[s]`.  The two are equal on all extended reals because `+` is
  associative and commutative there; the finiteness of the inputs is never used.

  Modules: RunSum (the regrouping of the sum, and the function `x·Wᵀ + b`), Payload (the stored values at an entry),
  Stored (what each case of the body leaves in the accumulator and the output block), Blocks (the windows' blocks in
  terms of the arguments), Accum (the accumulator over a block's four steps, and the output block), Result (the result
  array, and the run), RefAffine (the reference is `x·Wᵀ + b`).  The idealization rewrote nothing, so that claim is `True`.
-/
import proofs.«168702_j21251498180726_1_alg».proof.Defs
import proofs.«168702_j21251498180726_1_alg».proof.Proof.Gen.Kernel
import proofs.«168702_j21251498180726_1_alg».proof.Proof.Gen.Kernel.Skeleton
import proofs.«168702_j21251498180726_1_alg».proof.Proof.Gen.Kernel.Launch
import proofs.«168702_j21251498180726_1_alg».proof.Proof.Gen.Kernel.Points
import proofs.«168702_j21251498180726_1_alg».proof.Proof.Gen.Kernel.Frame
import proofs.«168702_j21251498180726_1_alg».proof.Proof.Gen.KernelIdeal
import proofs.«168702_j21251498180726_1_alg».proof.Proof.Gen.KernelIdeal.Skeleton
import proofs.«168702_j21251498180726_1_alg».proof.Proof.Gen.KernelIdeal.Launch
import proofs.«168702_j21251498180726_1_alg».proof.Proof.Gen.KernelIdeal.Points
import proofs.«168702_j21251498180726_1_alg».proof.Proof.Gen.KernelIdeal.Frame
import proofs.«168702_j21251498180726_1_alg».proof.Proof.Gen.ReferenceIdeal
import proofs.«168702_j21251498180726_1_alg».proof.Proof.Gen.Pre_finite_inputs
import proofs.«168702_j21251498180726_1_alg».proof.Proof.Gen.KernelIdeal.Value
import proofs.«168702_j21251498180726_1_alg».proof.Proof.Gen.ReferenceIdeal.Run
import proofs.«168702_j21251498180726_1_alg».proof.Proof.Gen.ReferenceIdeal.Read
import proofs.«168702_j21251498180726_1_alg».proof.Proof.Result
import proofs.«168702_j21251498180726_1_alg».proof.Proof.RefAffine
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is five host operations: its run, with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with `x·Wᵀ + b` of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq_affine,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
